-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x11008 : Shape := ⟨2, ![512, 11008]⟩
abbrev S32x11008 : Shape := ⟨2, ![32, 11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S8192x4096 .f32) (main_arg1 : IVec S512x11008 32) (main_arg2 : FVec F S32x11008 .f32) (main_arg3 : FVec F S32x11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg3
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  main_v13
-- ==== Kernel.lean ====
abbrev S8192x4096 : Shape := ⟨2, ![8192, 4096]⟩
abbrev S512x11008 : Shape := ⟨2, ![512, 11008]⟩
abbrev S32x11008 : Shape := ⟨2, ![32, 11008]⟩
abbrev S32x16x11008 : Shape := ⟨3, ![32, 16, 11008]⟩
abbrev S8192x512x8 : Shape := ⟨3, ![8192, 512, 8]⟩
abbrev S8192x8x512 : Shape := ⟨3, ![8192, 8, 512]⟩
abbrev S8192x11008 : Shape := ⟨2, ![8192, 11008]⟩
abbrev S1024x4096 : Shape := ⟨2, ![1024, 4096]⟩
abbrev S512x256 : Shape := ⟨2, ![512, 256]⟩
abbrev S1024x256 : Shape := ⟨2, ![1024, 256]⟩
abbrev S1024x512 : Shape := ⟨2, ![1024, 512]⟩

abbrev nBuf : Space → Nat
  | .hbm => 16
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S32x11008, .f32⟩
  | .hbm, ⟨5, _⟩ => ⟨S32x16x11008, .f32⟩
  | .hbm, ⟨6, _⟩ => ⟨S512x11008, .f32⟩
  | .hbm, ⟨7, _⟩ => ⟨S512x11008, .bf16⟩
  | .hbm, ⟨8, _⟩ => ⟨S32x16x11008, .f32⟩
  | .hbm, ⟨9, _⟩ => ⟨S512x11008, .f32⟩
  | .hbm, ⟨10, _⟩ => ⟨S512x11008, .bf16⟩
  | .hbm, ⟨11, _⟩ => ⟨S8192x512x8, .f32⟩
  | .hbm, ⟨12, _⟩ => ⟨S8192x8x512, .f32⟩
  | .hbm, ⟨13, _⟩ => ⟨S8192x4096, .f32⟩
  | .hbm, ⟨14, _⟩ => ⟨S8192x4096, .bf16⟩
  | .hbm, ⟨15, _⟩ => ⟨S8192x11008, .f32⟩
  | .local _ .vmem, ⟨0, _⟩ => ⟨S1024x4096, .bf16⟩
  | .local _ .vmem, ⟨1, _⟩ => ⟨S1024x4096, .bf16⟩
  | .local _ .vmem, ⟨2, _⟩ => ⟨S512x256, .i32⟩
  | .local _ .vmem, ⟨3, _⟩ => ⟨S512x256, .i32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x256, .f32⟩
  | .local _ .vmem, ⟨9, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S32x11008_S32x16x11008_0_2 : S32x11008.BroadcastsInDim S32x16x11008 (![0, 2] : Fin 2 → Fin S32x16x11008.rank)
  shapeCasts_S32x16x11008_S512x11008 : S32x16x11008.ShapeCasts S512x11008
  bitsLt_bf16_f32 : FTy.bits .bf16 < FTy.bits .f32
  shapeCasts_S8192x4096_S8192x512x8 : S8192x4096.ShapeCasts S8192x512x8
  transposes_S8192x512x8_S8192x8x512_0_2_1 : S8192x512x8.Transposes [0, 2, 1] S8192x8x512
  shapeCasts_S8192x8x512_S8192x4096 : S8192x8x512.ShapeCasts S8192x4096
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x4096_S1024x512_0_0 : ∀ a, (![0, 0] : Fin 2 → Nat) a + S1024x512.size a ≤ S1024x4096.size a
  h_S1024x512 : 0 < S1024x512.numel
  shapeCasts_S1024x512_S1024x512 : S1024x512.ShapeCasts S1024x512
  inb_S1024x4096_S1024x512_0_512 : ∀ a, (![0, 512] : Fin 2 → Nat) a + S1024x512.size a ≤ S1024x4096.size a
  inb_S1024x4096_S1024x512_0_1024 : ∀ a, (![0, 1024] : Fin 2 → Nat) a + S1024x512.size a ≤ S1024x4096.size a
  inb_S1024x4096_S1024x512_0_1536 : ∀ a, (![0, 1536] : Fin 2 → Nat) a + S1024x512.size a ≤ S1024x4096.size a
  inb_S1024x4096_S1024x512_0_2048 : ∀ a, (![0, 2048] : Fin 2 → Nat) a + S1024x512.size a ≤ S1024x4096.size a
  inb_S1024x4096_S1024x512_0_2560 : ∀ a, (![0, 2560] : Fin 2 → Nat) a + S1024x512.size a ≤ S1024x4096.size a
  inb_S1024x4096_S1024x512_0_3072 : ∀ a, (![0, 3072] : Fin 2 → Nat) a + S1024x512.size a ≤ S1024x4096.size a
  inb_S1024x4096_S1024x512_0_3584 : ∀ a, (![0, 3584] : Fin 2 → Nat) a + S1024x512.size a ≤ S1024x4096.size a
  inb_S1024x256_S1024x256_0_0 : ∀ a, (![0, 0] : Fin 2 → Nat) a + S1024x256.size a ≤ S1024x256.size a
  h_S1024x256 : 0 < S1024x256.numel
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x11008.size a
  hwx0_1 : ∀ i : grid0.Coords, EltTy.bits .i32 = 32 ∨ (Rect.block (s := S512x11008) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x11008.size a
  hwx0_2 : ∀ i : grid0.Coords, EltTy.bits .bf16 = 32 ∨ (Rect.block (s := S512x11008) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x11008.size a
  hwx0_3 : ∀ i : grid0.Coords, EltTy.bits .bf16 = 32 ∨ (Rect.block (s := S512x11008) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x11008.size a
  hwx0_4 : ∀ i : grid0.Coords, EltTy.bits .f32 = 32 ∨ (Rect.block (s := S8192x11008) S1024x256.size (cc0_transform_4 i) (hinb0_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v10) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S512x11008 : Shape := ⟨2, ![512, 11008]⟩
abbrev S32x11008 : Shape := ⟨2, ![32, 11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x128x11008 : Shape := ⟨3, ![32, 128, 11008]⟩
abbrev S8192x11008 : Shape := ⟨2, ![8192, 11008]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S512x1x11008, .i32⟩
  | .hbm, ⟨9, _⟩ => ⟨S1x8x1, .i32⟩
  | .hbm, ⟨10, _⟩ => ⟨S512x8x11008, .i32⟩
  | .hbm, ⟨11, _⟩ => ⟨S512x8x11008, .i32⟩
  | .hbm, ⟨12, _⟩ => ⟨S512x8x11008, .i32⟩
  | .hbm, ⟨13, _⟩ => ⟨S_, .i32⟩
  | .hbm, ⟨14, _⟩ => ⟨S512x8x11008, .i32⟩
  | .hbm, ⟨15, _⟩ => ⟨S512x8x11008, .i32⟩
  | .hbm, ⟨16, _⟩ => ⟨S4096x11008, .i32⟩
  | .hbm, ⟨17, _⟩ => ⟨S4096x11008, .f32⟩
  | .hbm, ⟨18, _⟩ => ⟨S32x128x11008, .f32⟩
  | .hbm, ⟨19, _⟩ => ⟨S4096x11008, .f32⟩
  | .hbm, ⟨20, _⟩ => ⟨S32x128x11008, .f32⟩
  | .hbm, ⟨21, _⟩ => ⟨S4096x11008, .f32⟩
  | .hbm, ⟨22, _⟩ => ⟨S4096x11008, .f32⟩
  | .hbm, ⟨23, _⟩ => ⟨S4096x11008, .f32⟩
  | .hbm, ⟨24, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.QGemmSpec.lean ====
/-
  Grouped 4-bit dequantisation followed by a matrix product, as functions of whole arrays.

  A packed 32-bit word holds eight 4-bit fields; field `e` is bits `4e … 4e+3`, read as a number in `0 … 15`.
  Row `k = 8·kp + e` of the dequantised weight matrix is
      `(field e of W_q[kp, n] − zeros[k / 128, n]) · scales[k / 128, n]`,
  and the result is the product of `x` with that matrix (`G`). The same number is reached by summing, field by
  field, over the packed rows, with `x`'s columns regrouped so that the columns of one field are adjacent and the
  group's scale and (zero · scale) repeated to one row per packed row (`GK`). The two agree (`GK_eq_G`) because
    • the sum over `k` regroups along `k = 8·kp + e` (a bijection `Fin 8 × Fin 512 ≃ Fin 4096`),
    • `(a − z)·s = a·s − z·s` when `z` and `s` are real numbers (it fails at the infinities), and
    • `k / 128 = kp / 16`.
  After masking with 15 an arithmetic and a logical right shift by `4e ≤ 28` keep the same four bits.
-/
import Idealize.ShloMosaic.PureOps.Ideal
import Idealize.ShloMosaic.Lib.ValueIdx
import Mathlib.Algebra.BigOperators.Fin

noncomputable section

namespace Cert.QGemm

open Idealize.ShloMosaic Idealize.ShloMosaic.ValueIdx

/-! ## The 4-bit fields of a word -/

/-- Masked with 15, an arithmetic right shift by `s ≤ 28` is the logical one: bit `i < 4` of either is bit `s + i` of
    the word, and the mask clears the rest. -/
theorem and15_sshiftRight (w : BitVec 32) (s : Nat) (hs : s + 4 ≤ 32) :
    w.sshiftRight s &&& 15#32 = (w >>> s) &&& 15#32 := by
  apply BitVec.eq_of_getLsbD_eq
  intro i hi
  rw [BitVec.getLsbD_and, BitVec.getLsbD_and, BitVec.getLsbD_sshiftRight, BitVec.getLsbD_ushiftRight]
  by_cases h4 : i < 4
  · have h1 : s + i < 32 := by omega
    have h2 : ¬ (32 ≤ i) := by omega
    simp [h1, h2]
  · have h3 : (15#32).getLsbD i = false := by
      rw [BitVec.getLsbD_ofNat]
      have : Nat.testBit 15 i = false := Nat.testBit_lt_two_pow (lt_of_lt_of_le (by norm_num : 15 < 2 ^ 4) (Nat.pow_le_pow_right (by norm_num) (by omega)))
      simp [this]
    rw [h3, Bool.and_false, Bool.and_false]

/-- Field `e` of a packed word, as a word: bits `4e … 4e+3`. -/
def nibW (w : BitVec 32) (e : Fin 8) : BitVec 32 :=
  IntOp.andi (IntOp.shrui .vector w (BitVec.ofNat 32 (4 * e.val))) 15#32

/-- Field `e` of a packed word, as a number. -/
def nib (w : BitVec 32) (e : Fin 8) : EReal := ((nibW w e).toInt : ℝ)

/-- The host's arithmetic shift by `e · 4`, masked, is field `e`. -/
theorem nibW_host (w : BitVec 32) (e : Fin 8) :
    IntOp.andi (IntOp.shrsi .host w (IntOp.muli (BitVec.ofNat 32 e.val) 4#32)) 15#32 = nibW w e := by
  have hy : IntOp.muli (BitVec.ofNat 32 e.val) 4#32 = BitVec.ofNat 32 (4 * e.val) := by fin_cases e <;> rfl
  have ht : (BitVec.ofNat 32 (4 * e.val)).toNat = 4 * e.val := by fin_cases e <;> rfl
  have he : e.val < 8 := e.isLt
  rw [hy]
  unfold nibW IntOp.andi IntOp.shrsi IntOp.shrui
  rw [if_pos (by rw [ht]; omega), if_pos (by rw [ht]; omega)]
  show w.sshiftRight (BitVec.ofNat 32 (4 * e.val)).toNat &&& 15#32 = (w >>> (BitVec.ofNat 32 (4 * e.val)).toNat) &&& 15#32
  rw [ht]
  exact and15_sshiftRight w _ (by omega)

/-! ## Regrouping the contraction -/

/-- `k = 8·kp + e`: the fields of the packed rows enumerate the rows of the dequantised matrix. -/
def splitK : Fin 8 × Fin 512 ≃ Fin 4096 where
  toFun p := ⟨p.2.val * 8 + p.1.val, by have h1 := p.1.isLt; have h2 := p.2.isLt; omega⟩
  invFun k := (⟨k.val % 8, Nat.mod_lt _ (by norm_num)⟩, ⟨k.val / 8, by have h := k.isLt; omega⟩)
  left_inv := by
    rintro ⟨e, kp⟩
    have h1 := e.isLt
    have h2 := kp.isLt
    refine Prod.ext (Fin.ext ?_) (Fin.ext ?_)
    · show (kp.val * 8 + e.val) % 8 = e.val; omega
    · show (kp.val * 8 + e.val) / 8 = kp.val; omega
  right_inv := by
    intro k
    refine Fin.ext ?_
    show k.val / 8 * 8 + k.val % 8 = k.val
    omega

/-- A sum over the 4096 rows is the sum over the eight fields of the sums over the 512 packed rows. -/
theorem sum_rows_eq (f : Fin 4096 → EReal) :
    ∑ k : Fin 4096, f k = ∑ e : Fin 8, ∑ kp : Fin 512, f (splitK (e, kp)) := by
  rw [← Equiv.sum_comp splitK f, Fintype.sum_prod_type]

/-! ## The dequantisation law -/

/-- `(a − z)·s = a·s − z·s` for real `z`, `s`. -/
theorem sub_mul_real (a : ℝ) {z s : EReal} (hz : ∃ r : ℝ, z = (r : EReal)) (hs : ∃ r : ℝ, s = (r : EReal)) :
    ((a : EReal) - z) * s = (a : EReal) * s - z * s := by
  obtain ⟨z', rfl⟩ := hz
  obtain ⟨s', rfl⟩ := hs
  rw [← EReal.coe_sub, ← EReal.coe_mul, ← EReal.coe_mul, ← EReal.coe_mul, ← EReal.coe_sub]
  exact congrArg _ (by ring)

/-! ## The two whole-array functions -/

/-- Arrays of rank 2 over literal extents. -/
abbrev Arr (a b : Nat) (α : Type) : Type := (⟨2, ![a, b]⟩ : Shape).Idx → α

/-- Row `k`, column `n` of the dequantised weights. -/
def wdq (wq : Arr 512 11008 (BitVec 32)) (sc ze : Arr 32 11008 EReal) (k : Fin 4096) (n : Fin 11008) : EReal :=
  (nib (wq (ix2 ⟨k.val / 8, by have h := k.isLt; omega⟩ n)) ⟨k.val % 8, Nat.mod_lt _ (by norm_num)⟩
      - ze (ix2 ⟨k.val / 128, by have h := k.isLt; omega⟩ n))
    * sc (ix2 ⟨k.val / 128, by have h := k.isLt; omega⟩ n)

/-- Entry `(r, n)` of `x` times the dequantised weights. -/
def gAt (x : Arr 8192 4096 EReal) (wq : Arr 512 11008 (BitVec 32)) (sc ze : Arr 32 11008 EReal)
    (r : Fin 8192) (n : Fin 11008) : EReal :=
  ∑ k : Fin 4096, x (ix2 r k) * wdq wq sc ze k n

/-- The same entry summed field by field: `x2` has the columns of field `e` at `512·e … 512·e + 511`, `s` and `zs`
    hold one row per packed row. -/
def gkAt (x2 : Arr 8192 4096 EReal) (wq : Arr 512 11008 (BitVec 32)) (s zs : Arr 512 11008 EReal)
    (r : Fin 8192) (n : Fin 11008) : EReal :=
  ∑ e : Fin 8, ∑ kp : Fin 512,
    x2 (ix2 r ⟨e.val * 512 + kp.val, by have h1 := e.isLt; have h2 := kp.isLt; omega⟩)
      * (nib (wq (ix2 kp n)) e * s (ix2 kp n) - zs (ix2 kp n))

/-- `x` times the dequantised weights. -/
def G (x : Arr 8192 4096 EReal) (wq : Arr 512 11008 (BitVec 32)) (sc ze : Arr 32 11008 EReal) : Arr 8192 11008 EReal :=
  fun i => gAt x wq sc ze (i 0) (i 1)

/-- The field-by-field form as a whole array. -/
def GK (x2 : Arr 8192 4096 EReal) (wq : Arr 512 11008 (BitVec 32)) (s zs : Arr 512 11008 EReal) : Arr 8192 11008 EReal :=
  fun i => gkAt x2 wq s zs (i 0) (i 1)

/-- The field-by-field sum over regrouped columns and repeated group rows is the product with the dequantised
    weights, when the scales and zero points are real numbers. -/
theorem gkAt_eq_gAt (x x2 : Arr 8192 4096 EReal) (wq : Arr 512 11008 (BitVec 32)) (sc ze : Arr 32 11008 EReal)
    (s zs : Arr 512 11008 EReal)
    (hx2 : ∀ (r : Fin 8192) (e : Fin 8) (kp : Fin 512),
      x2 (ix2 r ⟨e.val * 512 + kp.val, by have h1 := e.isLt; have h2 := kp.isLt; omega⟩) = x (ix2 r (splitK (e, kp))))
    (hs : ∀ (kp : Fin 512) (n : Fin 11008), s (ix2 kp n) = sc (ix2 ⟨kp.val / 16, by have h := kp.isLt; omega⟩ n))
    (hzs : ∀ (kp : Fin 512) (n : Fin 11008), zs (ix2 kp n)
      = ze (ix2 ⟨kp.val / 16, by have h := kp.isLt; omega⟩ n) * sc (ix2 ⟨kp.val / 16, by have h := kp.isLt; omega⟩ n))
    (hsc : ∀ j, ∃ r : ℝ, sc j = (r : EReal)) (hze : ∀ j, ∃ r : ℝ, ze j = (r : EReal))
    (r : Fin 8192) (n : Fin 11008) :
    gkAt x2 wq s zs r n = gAt x wq sc ze r n := by
  unfold gkAt gAt
  rw [sum_rows_eq]
  refine Finset.sum_congr rfl fun e _ => Finset.sum_congr rfl fun kp _ => ?_
  have h1 := e.isLt
  have h2 := kp.isLt
  rw [hx2, hs, hzs]
  unfold wdq
  have e8 : (⟨(splitK (e, kp)).val / 8, by have h := (splitK (e, kp)).isLt; omega⟩ : Fin 512) = kp :=
    Fin.ext (by show (kp.val * 8 + e.val) / 8 = kp.val; omega)
  have em : (⟨(splitK (e, kp)).val % 8, Nat.mod_lt _ (by norm_num)⟩ : Fin 8) = e :=
    Fin.ext (by show (kp.val * 8 + e.val) % 8 = e.val; omega)
  have eg : (⟨(splitK (e, kp)).val / 128, by have h := (splitK (e, kp)).isLt; omega⟩ : Fin 32)
      = ⟨kp.val / 16, by omega⟩ :=
    Fin.ext (by show (kp.val * 8 + e.val) / 128 = kp.val / 16; omega)
  rw [e8, em, eg]
  unfold nib
  rw [sub_mul_real _ (hze _) (hsc _)]

/-- The whole-array form of `gkAt_eq_gAt`. -/
theorem GK_eq_G (x x2 : Arr 8192 4096 EReal) (wq : Arr 512 11008 (BitVec 32)) (sc ze : Arr 32 11008 EReal)
    (s zs : Arr 512 11008 EReal)
    (hx2 : ∀ (r : Fin 8192) (e : Fin 8) (kp : Fin 512),
      x2 (ix2 r ⟨e.val * 512 + kp.val, by have h1 := e.isLt; have h2 := kp.isLt; omega⟩) = x (ix2 r (splitK (e, kp))))
    (hs : ∀ (kp : Fin 512) (n : Fin 11008), s (ix2 kp n) = sc (ix2 ⟨kp.val / 16, by have h := kp.isLt; omega⟩ n))
    (hzs : ∀ (kp : Fin 512) (n : Fin 11008), zs (ix2 kp n)
      = ze (ix2 ⟨kp.val / 16, by have h := kp.isLt; omega⟩ n) * sc (ix2 ⟨kp.val / 16, by have h := kp.isLt; omega⟩ n))
    (hsc : ∀ j, ∃ r : ℝ, sc j = (r : EReal)) (hze : ∀ j, ∃ r : ℝ, ze j = (r : EReal)) :
    GK x2 wq s zs = G x wq sc ze :=
  funext fun i => gkAt_eq_gAt x x2 wq sc ze s zs hx2 hs hzs hsc hze (i 0) (i 1)

end Cert.QGemm

end
-- ==== Proof.RefIsG.lean ====
/-
  The reference program computes `G`.

  Its last operation is a matrix product of `x` with a 4096 × 11008 matrix whose entry `(k, n)` is
  `(field − zero) · scale`: the field is the packed word `W_q[k / 8, n]` shifted right (arithmetically) by
  `4 · (k mod 8)` and masked with 15, converted to a float; the zero point and the scale are those of group `k / 128`.
  Reading the program one operation at a time at an index, the reshapes `[512, 8, 11008] → [4096, 11008]` and
  `[32, 128, 11008] → [4096, 11008]` send row `k` to `(k / 8, k mod 8)` and to `(k / 128, k mod 128)`.
-/
import proofs.«417954_j4312147165418_3_alg».proof.Proof.Gen.ReferenceIdeal.Read
import proofs.«417954_j4312147165418_3_alg».proof.Proof.QGemmSpec

noncomputable section

namespace Cert.QGemm.RefSide

open Cert.ReferenceIdeal Cert.ReferenceIdeal.Read Idealize.ShloMosaic Idealize.ShloMosaic.ValueIdx Cert.QGemm

/-- The left operand of the product is read at row `i 0`, column `k`. -/
theorem lidx_eq (i : S8192x11008.Idx) (k : Fin 4096) : lidx_main_v18 i k = ix2 (i 0) k :=
  funext fun a => Fin.ext (by match a with | ⟨0, _⟩ => rfl | ⟨1, _⟩ => rfl)

/-- The packed word read for row `k`, column `i 1` is `W_q[k / 8, i 1]`. -/
theorem word_idx (i : S8192x11008.Idx) (k : Fin 4096) :
    idx_main_v3 (idx_main_v5 (idx_main_v10 (ridx_main_v18 i k)))
      = ix2 (⟨k.val / 8, by have h := k.isLt; omega⟩ : Fin 512) (i 1) :=
  funext fun a => Fin.ext (by
    have hk : k.val < 4096 := k.isLt
    have hn : (i 1).val < 11008 := (i 1).isLt
    match a with
    | ⟨0, _⟩ => show (k.val * 11008 + (i 1).val) / 88064 = k.val / 8; omega
    | ⟨1, _⟩ => show (k.val * 11008 + (i 1).val) % 11008 = (i 1).val; omega)

/-- The shift amount read for row `k` is entry `k mod 8` of the table `0, 4, …, 28`. -/
theorem shift_idx (i : S8192x11008.Idx) (k : Fin 4096) :
    ((idx_main_v4 (idx_main_v6 (idx_main_v10 (ridx_main_v18 i k)))) 0).val = k.val % 8 := by
  have hk : k.val < 4096 := k.isLt
  have hn : (i 1).val < 11008 := (i 1).isLt
  show (k.val * 11008 + (i 1).val) / 11008 % 8 = k.val % 8
  omega

/-- The group row read for row `k`, column `i 1` is row `k / 128` (scales). -/
theorem scale_idx (i : S8192x11008.Idx) (k : Fin 4096) :
    idx_main_v12 (idx_main_v13 (ridx_main_v18 i k))
      = ix2 (⟨k.val / 128, by have h := k.isLt; omega⟩ : Fin 32) (i 1) :=
  funext fun a => Fin.ext (by
    have hk : k.val < 4096 := k.isLt
    have hn : (i 1).val < 11008 := (i 1).isLt
    match a with
    | ⟨0, _⟩ => show (k.val * 11008 + (i 1).val) / 1409024 = k.val / 128; omega
    | ⟨1, _⟩ => show (k.val * 11008 + (i 1).val) % 11008 = (i 1).val; omega)

/-- The group row read for row `k`, column `i 1` is row `k / 128` (zero points). -/
theorem zero_idx (i : S8192x11008.Idx) (k : Fin 4096) :
    idx_main_v14 (idx_main_v15 (ridx_main_v18 i k))
      = ix2 (⟨k.val / 128, by have h := k.isLt; omega⟩ : Fin 32) (i 1) :=
  funext fun a => Fin.ext (by
    have hk : k.val < 4096 := k.isLt
    have hn : (i 1).val < 11008 := (i 1).isLt
    match a with
    | ⟨0, _⟩ => show (k.val * 11008 + (i 1).val) / 1409024 = k.val / 128; omega
    | ⟨1, _⟩ => show (k.val * 11008 + (i 1).val) % 11008 = (i 1).val; omega)

/-- Entry `(k, i 1)` of the matrix the reference multiplies `x` by is the dequantised weight. -/
theorem weight_eq (x1 : (⟨S512x11008, .i32⟩ : BufTy).Contents (Elt Ideal)) (x2 x3 : (⟨S32x11008, .f32⟩ : BufTy).Contents (Elt Ideal))
    (i : S8192x11008.Idx) (k : Fin 4096) :
    val_main_v17 (F := Ideal) x1 x2 x3 (ridx_main_v18 i k) = wdq x1 x2 x3 k (i 1) := by
  rw [val_main_v17_apply, val_main_v16_apply, val_main_v11_apply, val_main_v10_apply, val_main_v9_apply,
    val_main_v7_apply, val_main_v5_apply, val_main_v3_apply, val_main_v6_apply, val_main_v4_apply, val_main_v2_apply,
    val_main_v0_apply, val_main_v1_apply, val_main_c_apply, val_main_v8_apply, val_main_c_0_apply,
    val_main_v15_apply, val_main_v14_apply, val_main_v13_apply, val_main_v12_apply,
    word_idx, scale_idx, zero_idx, shift_idx]
  have hw := nibW_host (x1 (ix2 (⟨k.val / 8, by have h := k.isLt; omega⟩ : Fin 512) (i 1))) ⟨k.val % 8, Nat.mod_lt _ (by norm_num)⟩
  show ((((IntOp.andi (IntOp.shrsi .host (x1 (ix2 (⟨k.val / 8, by have h := k.isLt; omega⟩ : Fin 512) (i 1)))
      (IntOp.muli (BitVec.ofNat 32 (k.val % 8)) 4#32)) 15#32).toInt : ℝ) : EReal) - x3 _) * x2 _ = _
  rw [hw]
  rfl

/-- The reference's result is `G` of its arguments. -/
theorem ref_eq_G (x0 : (⟨S8192x4096, .f32⟩ : BufTy).Contents (Elt Ideal)) (x1 : (⟨S512x11008, .i32⟩ : BufTy).Contents (Elt Ideal))
    (x2 x3 : (⟨S32x11008, .f32⟩ : BufTy).Contents (Elt Ideal)) :
    val_main_v18 (F := Ideal) x0 x1 x2 x3 = G x0 x1 x2 x3 := by
  funext i
  rw [val_main_v18_apply]
  unfold G gAt
  refine Finset.sum_congr rfl fun k _ => ?_
  rw [lidx_eq, weight_eq]
  rfl

end Cert.QGemm.RefSide

end
-- ==== Proof.BlockEntry.lean ====
/-
  What the kernel body leaves in one output block.

  The body reads a 1024 × 4096 block of the regrouped `x`, and 512 × 256 blocks of the packed words, of the repeated
  scales and of the repeated (zero · scale). For each field `e = 0 … 7` it forms the 512 × 256 matrix
  `field_e(word) · scale − zero·scale` and multiplies columns `512·e … 512·e + 511` of the `x` block by it; the eight
  products are added up, starting from zero. Entry `(p, q)` of the block is therefore
      `∑ e, ∑ kp, x[p, 512·e + kp] · (field_e(w[kp, q]) · s[kp, q] − zs[kp, q])`.
-/
import proofs.«417954_j4312147165418_3_alg».proof.Proof.Gen.KernelIdeal.Frame
import proofs.«417954_j4312147165418_3_alg».proof.Proof.QGemmSpec
import Idealize.ShloMosaic.Lib.Pipeline.Value
import Idealize.ShloMosaic.Lib.ValueIdx
import Idealize.ShloMosaic.PureOps.Ideal.Laws

noncomputable section

namespace Cert.QGemm.KernelSide

open Cert.KernelIdeal Cert.KernelIdeal.Gen Idealize.ShloMosaic Idealize.ShloMosaic.ValueIdx Cert.QGemm

/-- The offsets of a load or store of a whole buffer are all zero. -/
theorem zero_offsets : (![0, 0] : Fin 2 → Nat) = fun _ => 0 := funext fun a => by fin_cases a <;> rfl

/-! ## One matrix product at an index -/

/-- The product contracts axis 1 of its left operand with axis 0 of its right one: for the result entry `i` and the shared
    index `q`, the left operand is read at `(i 0, q)` and the right at `(q, i 1)`. Coordinate by coordinate: -/
theorem lhs_axis_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_axis_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_axis_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_axis_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- A 1024 × 512 by 512 × 256 product into a zero accumulator, at entry `(p, q)`: the sum over the 512 shared
    indices of the products. -/
theorem product_apply (xs : FVec Ideal S1024x512 .bf16) (wd : FVec Ideal S512x256 .bf16) (p : Fin 1024) (q : Fin 256) :
    matmul dot_S1024x512_S512x256_S1024x256_1_0_0_1_n_n none xs wd (constant S1024x256 .f32 0x00000000#32) (ix2 p q)
      = ∑ kp : Fin 512, xs (ix2 p kp) * wd (ix2 kp q) := by
  show FloatOps.matmul dot_S1024x512_S512x256_S1024x256_1_0_0_1_n_n none xs wd (constant S1024x256 .f32 0x00000000#32) (ix2 p q) = _
  rw [Ideal.matmul_constant_zero_apply, ← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx (ix2 p q) ((ValueIdx.contrEquiv1 dot_S1024x512_S512x256_S1024x256_1_0_0_1_n_n 512 rfl rfl).symm k) = ix2 p k := funext fun a => Fin.ext (by
    match a with
    | ⟨0, _⟩ => exact lhs_axis_0 _ _
    | ⟨1, _⟩ => exact (lhs_axis_1 _ _).trans hk)
  have er : dot_S1024x512_S512x256_S1024x256_1_0_0_1_n_n.rhsIdx (ix2 p q) ((ValueIdx.contrEquiv1 dot_S1024x512_S512x256_S1024x256_1_0_0_1_n_n 512 rfl rfl).symm k) = ix2 k q := funext fun a => Fin.ext (by
    match a with
    | ⟨0, _⟩ => exact (rhs_axis_0 _ _).trans hk
    | ⟨1, _⟩ => exact rhs_axis_1 _ _)
  rw [el, er]

/-! ## A column slice of the `x` block -/

/-- Loading columns `off … off + 511` of the block reads column `off + kp` at local column `kp`. -/
theorem slice_apply (x0 : Vec Ideal S1024x4096 .bf16) (off : Nat) (hoff : off + 512 ≤ 4096)
    (inb : ∀ a, (![0, off] : Fin 2 → Nat) a + S1024x512.size a ≤ S1024x4096.size a) (p : Fin 1024) (kp : Fin 512) :
    View.ld x0 (Rect.unit (s := S1024x4096) ![0, off] S1024x512.size inb) (ix2 p kp)
      = x0 (ix2 p ⟨off + kp.val, by have h := kp.isLt; omega⟩) := by
  show x0 _ = x0 _
  refine congrArg x0 (funext fun a => Fin.ext ?_)
  match a with
  | ⟨0, _⟩ => show 0 + 1 * p.val = p.val; omega
  | ⟨1, _⟩ => show off + 1 * kp.val = off + kp.val; omega

/-! ## One field's contribution -/

/-- The product of the field-`e` columns of the `x` block with the field-`e` dequantised block. -/
theorem field_apply (x0 : Vec Ideal S1024x4096 .bf16) (x1 : Vec Ideal S512x256 .i32) (x2 x3 : Vec Ideal S512x256 .bf16)
    (off : Nat) (hoff : off + 512 ≤ 4096)
    (inb : ∀ a, (![0, off] : Fin 2 → Nat) a + S1024x512.size a ≤ S1024x4096.size a)
    (c : BitVec 32) (e : Fin 8) (he : off = e.val * 512) (hc : c = BitVec.ofNat 32 (4 * e.val)) (p : Fin 1024) (q : Fin 256) :
    (matmul (φ₁ := .bf16) (φ₂ := .bf16) dot_S1024x512_S512x256_S1024x256_1_0_0_1_n_n none (View.ld x0 (Rect.unit (s := S1024x4096) ![0, off] S1024x512.size inb))
        (subf (mulf (sitofp (F := Ideal) .bf16 (andi (shrui x1 (broadcast S512x256 c)) (broadcast S512x256 15#32))) x2) x3)
        (constant (F := Ideal) S1024x256 .f32 0x00000000#32) (ix2 p q) : EReal)
      = ∑ kp : Fin 512, x0 (ix2 p ⟨e.val * 512 + kp.val, by have h1 := e.isLt; have h2 := kp.isLt; omega⟩)
          * (nib (x1 (ix2 kp q)) e * x2 (ix2 kp q) - x3 (ix2 kp q)) := by
  subst he hc
  rw [product_apply]
  refine Finset.sum_congr rfl fun kp _ => ?_
  rw [slice_apply x0 _ hoff inb p kp]
  rfl

/-! ## The block -/

/-- Entry `(p, q)` of the block the body computes from its four input blocks. -/
def blockAt (x0 : Vec Ideal S1024x4096 .bf16) (x1 : Vec Ideal S512x256 .i32) (x2 x3 : Vec Ideal S512x256 .bf16)
    (p : Fin 1024) (q : Fin 256) : EReal :=
  ∑ e : Fin 8, ∑ kp : Fin 512,
    x0 (ix2 p ⟨e.val * 512 + kp.val, by have h1 := e.isLt; have h2 := kp.isLt; omega⟩)
      * (nib (x1 (ix2 kp q)) e * x2 (ix2 kp q) - x3 (ix2 kp q))

set_option maxHeartbeats 1000000 in
/-- What the body stores, at an index: the eight fields' products added from zero. -/
theorem out_apply (x0 : Vec Ideal S1024x4096 .bf16) (x1 : Vec Ideal S512x256 .i32) (x2 x3 : Vec Ideal S512x256 .bf16)
    (p : Fin 1024) (q : Fin 256) :
    out0_4 (F := Ideal) x0 x1 x2 x3 (ix2 p q) = blockAt x0 x1 x2 x3 p q := by
  unfold out0_4
  rw [View.canon_unit_zero zero_offsets]
  simp only [View.ld_unit_zero (S := S512x256) zero_offsets]
  unfold k0_pay1 k0_pay7 k0_pay4 k0_pay5 k0_pay6 k0_pay8 k0_pay2 k0_pay3
  simp only [shapeCast_self, addf_apply]
  rw [field_apply x0 x1 x2 x3 0 (by norm_num) _ 0#32 0 rfl rfl p q,
    field_apply x0 x1 x2 x3 512 (by norm_num) _ 4#32 1 rfl rfl p q,
    field_apply x0 x1 x2 x3 1024 (by norm_num) _ 8#32 2 rfl rfl p q,
    field_apply x0 x1 x2 x3 1536 (by norm_num) _ 12#32 3 rfl rfl p q,
    field_apply x0 x1 x2 x3 2048 (by norm_num) _ 16#32 4 rfl rfl p q,
    field_apply x0 x1 x2 x3 2560 (by norm_num) _ 20#32 5 rfl rfl p q,
    field_apply x0 x1 x2 x3 3072 (by norm_num) _ 24#32 6 rfl rfl p q,
    field_apply x0 x1 x2 x3 3584 (by norm_num) _ 28#32 7 rfl rfl p q]
  rw [show (broadcast S1024x256 (FloatOps.ofBits (F := Ideal) .f32 0#32) (ix2 p q) : EReal) = 0 from Ideal.ofBits_zero_f32, zero_add]
  unfold blockAt
  rw [Fin.sum_univ_eight]

end Cert.QGemm.KernelSide

end
-- ==== Proof.HostPrefix.lean ====
/-
  What the region finds in the three arrays the host computes before it.

  • The regrouped `x`: `x` is reshaped to `[8192, 512, 8]`, its last two axes are swapped, and the result is reshaped back to
    `[8192, 4096]`; so column `512·e + kp` of the regrouped array is column `8·kp + e` of `x`.
  • The repeated scales: `scales` is broadcast to `[32, 16, 11008]` and reshaped to `[512, 11008]`; row `kp` is row `kp / 16`.
  • The repeated zero·scale: the same re-layout of the entrywise product `zeros · scales`.
  The changes of float format in between are the identity on extended reals.
-/
import proofs.«417954_j4312147165418_3_alg».proof.Proof.Gen.KernelIdeal.Frame
import proofs.«417954_j4312147165418_3_alg».proof.Proof.QGemmSpec
import Idealize.ShloMosaic.Lib.Pipeline.Value
import Idealize.ShloMosaic.Lib.ValueIdx
import Idealize.ShloMosaic.Lib.StableHlo.Run

noncomputable section

namespace Cert.QGemm.KernelSide

open Cert.KernelIdeal Cert.KernelIdeal.Gen Idealize.ShloMosaic Idealize.ShloMosaic.TcCoe Idealize.ShloMosaic.ValueIdx Cert.QGemm
open Idealize.SL.Sem Idealize.ShloMosaic.StableHlo

variable (m : (ℓ : Loc nD τ sig) → Buf (Elt Ideal) ℓ)

/-- The argument arrays on core `c`, at their literal types. -/
abbrev xArr (c : Dev nD) : Arr 8192 4096 EReal := m ((c : Thread nD τ).loc main_arg0)
abbrev wqArr (c : Dev nD) : Arr 512 11008 (BitVec 32) := m ((c : Thread nD τ).loc main_arg1)
abbrev scArr (c : Dev nD) : Arr 32 11008 EReal := m ((c : Thread nD τ).loc main_arg2)
abbrev zeArr (c : Dev nD) : Arr 32 11008 EReal := m ((c : Thread nD τ).loc main_arg3)

/-! ## The host operations' terms -/

/-- The regrouped `x` as the host computes it: reshape to `[8192, 512, 8]`, swap the last two axes, reshape back. -/
theorem xperm_term (c : Dev nD) :
    (V m c main_v10 : S8192x4096.Idx → EReal)
      = truncf (F := Ideal) .bf16 (shapeCast S8192x4096 (transpose S8192x8x512 [0, 2, 1]
          (shapeCast S8192x512x8 (m ((c : Thread nD τ).loc main_arg0) : S8192x4096.Idx → EReal) shapeCasts_S8192x4096_S8192x512x8)
          transposes_S8192x512x8_S8192x8x512_0_2_1) shapeCasts_S8192x8x512_S8192x4096) bitsLt_bf16_f32 := by
  dsimp only [V, hostOps0]
  after_results
  rfl

/-- The repeated scales as the host computes them: broadcast to `[32, 16, 11008]`, reshape to `[512, 11008]`. -/
theorem srep_term (c : Dev nD) :
    (V m c main_v3 : S512x11008.Idx → EReal)
      = truncf (F := Ideal) .bf16 (shapeCast S512x11008 (broadcastInDim S32x16x11008 ![0, 2] bcast_S32x11008_S32x16x11008_0_2
          (m ((c : Thread nD τ).loc main_arg2) : S32x11008.Idx → EReal)) shapeCasts_S32x16x11008_S512x11008) bitsLt_bf16_f32 := by
  dsimp only [V, hostOps0]
  after_results
  rfl

/-- The repeated zero·scale: the same re-layout of the entrywise product of the zero points and the scales. -/
theorem zsrep_term (c : Dev nD) :
    (V m c main_v6 : S512x11008.Idx → EReal)
      = truncf (F := Ideal) .bf16 (shapeCast S512x11008 (broadcastInDim S32x16x11008 ![0, 2] bcast_S32x11008_S32x16x11008_0_2
          (mulf (F := Ideal) (m ((c : Thread nD τ).loc main_arg3) : FVec Ideal S32x11008 .f32) (m ((c : Thread nD τ).loc main_arg2) : FVec Ideal S32x11008 .f32)))
          shapeCasts_S32x16x11008_S512x11008) bitsLt_bf16_f32 := by
  dsimp only [V, hostOps0]
  after_results
  rfl

/-! ## Read at an index -/

/-- Column `512·e + kp` of the regrouped array is column `8·kp + e` of `x`. -/
theorem xperm_apply (c : Dev nD) (r : Fin 8192) (e : Fin 8) (kp : Fin 512) :
    (V m c main_v10 : S8192x4096.Idx → EReal) (ix2 r ⟨e.val * 512 + kp.val, by have h1 := e.isLt; have h2 := kp.isLt; omega⟩)
      = xArr m c (ix2 r (splitK (e, kp))) := by
  have h1 := e.isLt
  have h2 := kp.isLt
  have h3 := r.isLt
  rw [xperm_term, truncf_apply]
  rw [shapeCast_apply _ shapeCasts_S8192x8x512_S8192x4096 _ (ix3 r e kp : S8192x8x512.Idx)
    (by rewrite [Shape.rowMajor_val_three, Shape.rowMajor_val_two]
        show (r.val * 8 + e.val) * 512 + kp.val = r.val * 4096 + (e.val * 512 + kp.val); omega)]
  rw [transpose_apply [0, 2, 1] _ transposes_S8192x512x8_S8192x8x512_0_2_1 (ix3 r e kp : S8192x8x512.Idx) (ix3 r kp e : S8192x512x8.Idx)
    (fun b => by match b with | ⟨0, _⟩ => rfl | ⟨1, _⟩ => rfl | ⟨2, _⟩ => rfl)]
  rw [shapeCast_apply _ shapeCasts_S8192x4096_S8192x512x8 _ (ix2 r (splitK (e, kp)) : S8192x4096.Idx)
    (by rewrite [Shape.rowMajor_val_three, Shape.rowMajor_val_two]
        show r.val * 4096 + (kp.val * 8 + e.val) = (r.val * 512 + kp.val) * 8 + e.val; omega)]

/-- Row `kp` of the repeated scales is row `kp / 16` of `scales`. -/
theorem srep_apply (c : Dev nD) (kp : Fin 512) (n : Fin 11008) :
    (V m c main_v3 : S512x11008.Idx → EReal) (ix2 kp n)
      = scArr m c (ix2 ⟨kp.val / 16, by have h := kp.isLt; omega⟩ n) := by
  have h2 := kp.isLt
  have h3 := n.isLt
  rw [srep_term, truncf_apply]
  rw [shapeCast_apply _ shapeCasts_S32x16x11008_S512x11008 _
    (ix3 (⟨kp.val / 16, by omega⟩ : Fin 32) (⟨kp.val % 16, Nat.mod_lt _ (by norm_num)⟩ : Fin 16) n : S32x16x11008.Idx)
    (by rewrite [Shape.rowMajor_val_three, Shape.rowMajor_val_two]
        show (kp.val / 16 * 16 + kp.val % 16) * 11008 + n.val = kp.val * 11008 + n.val; omega)]
  exact broadcastInDim_apply _ bcast_S32x11008_S32x16x11008_0_2 _ _ (ix2 (⟨kp.val / 16, by omega⟩ : Fin 32) n : S32x11008.Idx) (fun a => match a with
    | ⟨0, _⟩ => by show kp.val / 16 = if (32 : Nat) = 1 then 0 else kp.val / 16; rw [if_neg (by decide)]
    | ⟨1, _⟩ => by show n.val = if (11008 : Nat) = 1 then 0 else n.val; rw [if_neg (by decide)])

/-- Row `kp` of the repeated zero·scale is the product of rows `kp / 16` of `zeros` and of `scales`. -/
theorem zsrep_apply (c : Dev nD) (kp : Fin 512) (n : Fin 11008) :
    (V m c main_v6 : S512x11008.Idx → EReal) (ix2 kp n)
      = zeArr m c (ix2 ⟨kp.val / 16, by have h := kp.isLt; omega⟩ n)
        * scArr m c (ix2 ⟨kp.val / 16, by have h := kp.isLt; omega⟩ n) := by
  have h2 := kp.isLt
  have h3 := n.isLt
  rw [zsrep_term, truncf_apply]
  rw [shapeCast_apply _ shapeCasts_S32x16x11008_S512x11008 _
    (ix3 (⟨kp.val / 16, by omega⟩ : Fin 32) (⟨kp.val % 16, Nat.mod_lt _ (by norm_num)⟩ : Fin 16) n : S32x16x11008.Idx)
    (by rewrite [Shape.rowMajor_val_three, Shape.rowMajor_val_two]
        show (kp.val / 16 * 16 + kp.val % 16) * 11008 + n.val = kp.val * 11008 + n.val; omega)]
  exact broadcastInDim_apply _ bcast_S32x11008_S32x16x11008_0_2 _ _ (ix2 (⟨kp.val / 16, by omega⟩ : Fin 32) n : S32x11008.Idx) (fun a => match a with
    | ⟨0, _⟩ => by show kp.val / 16 = if (32 : Nat) = 1 then 0 else kp.val / 16; rw [if_neg (by decide)]
    | ⟨1, _⟩ => by show n.val = if (11008 : Nat) = 1 then 0 else n.val; rw [if_neg (by decide)])

end Cert.QGemm.KernelSide

end
-- ==== Proof.BlocksToArray.lean ====
/-
  From the blocks to the whole result array.

  Grid point `t` of the 8 × 43 grid writes the 1024 × 256 block at block row `t / 43` and block column `t mod 43`. It
  reads the block row `t / 43` of the regrouped `x` (all 4096 columns) and the block column `t mod 43` of the packed
  words and of the two repeated group arrays (all 512 rows). So what it writes is that block of the field-by-field
  form `GK` of the arrays the region finds; the 344 blocks tile the result; and `GK` of those arrays is `G` of the
  arguments when the scales and zero points are real numbers.
-/
import proofs.«417954_j4312147165418_3_alg».proof.Proof.Gen.KernelIdeal.Value
import proofs.«417954_j4312147165418_3_alg».proof.Proof.BlockEntry
import proofs.«417954_j4312147165418_3_alg».proof.Proof.HostPrefix

noncomputable section

namespace Cert.QGemm.KernelSide

open Cert.KernelIdeal Cert.KernelIdeal.Gen Idealize.ShloMosaic Idealize.ShloMosaic.TcCoe Idealize.ShloMosaic.ValueIdx Cert.QGemm
open Idealize.SL.Sem
open Idealize.ShloMosaic.Pipeline (Dat)

variable (m : (ℓ : Loc nD τ sig) → Buf (Elt Ideal) ℓ) (ρ : Dev nD → PrngReg)

/-- The arrays the region finds, at their literal types. -/
abbrev x2V (c : Dev nD) : Arr 8192 4096 EReal := V m c main_v10
abbrev wqV (c : Dev nD) : Arr 512 11008 (BitVec 32) := V m c main_arg1
abbrev sV (c : Dev nD) : Arr 512 11008 EReal := V m c main_v3
abbrev zsV (c : Dev nD) : Arr 512 11008 EReal := V m c main_v6

/-- The field-by-field form of the arrays the region finds. -/
abbrev found (c : Dev nD) : Arr 8192 11008 EReal := GK (x2V m c) (wqV m c) (sV m c) (zsV m c)

/-- The printed index maps over the grid: the `x` window follows the output's block row and stays at block column 0; the
    three weight-side windows stay at block row 0 and follow the output's block column; the output's block is
    `(t / 43, t mod 43)`. -/
theorem index_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = t.val / 43 ∧ win0_4.index t (1 : Fin 2) = t.val % 43 :=
  (by decide +kernel : ∀ t : Fin grid0.N, _)

/-- What point `t` writes back is block `t` of the field-by-field form. -/
theorem flushed_eq (c : Dev nD) (t : Fin cfg0.N) :
    (dats m 0 c).flushed 4 t = ((cfg0.win 4).blk t).view.read (Elt Ideal) (found m c) := by
  rw [Cert.KernelIdeal.Value.flushed4]
  obtain ⟨f00, f01, f10, f11, f20, f21, f30, f31, -, -⟩ := index_facts t
  funext j
  obtain ⟨p, q, rfl⟩ : ∃ (p : Fin 1024) (q : Fin 256), j = ix2 p q := ⟨j 0, j 1, eq_ix2 j⟩
  show out0_4 (F := Ideal) (iblk m c 0 t) (iblk m c 1 t) (iblk m c 2 t) (iblk m c 3 t) (ix2 p q)
    = found m c (((cfg0.win 4).blk t).view.emb (ix2 p q))
  refine (out_apply (iblk m c 0 t) (iblk m c 1 t) (iblk m c 2 t) (iblk m c 3 t) p q).trans ?_
  unfold blockAt
  show _ = gkAt (x2V m c) (wqV m c) (sV m c) (zsV m c) _ _
  unfold gkAt
  refine Finset.sum_congr rfl fun e _ => Finset.sum_congr rfl fun kp _ => ?_
  have he := e.isLt
  have hkp := kp.isLt
  have b0 : iblk m c 0 t (ix2 p ⟨e.val * 512 + kp.val, by omega⟩)
      = x2V m c (ix2 ((((cfg0.win 4).blk t).view.emb (ix2 p q)) 0) ⟨e.val * 512 + kp.val, by omega⟩) := by
    show V m c main_v10 (((cfg0.win 0).blk t).view.emb (ix2 p ⟨e.val * 512 + kp.val, by omega⟩)) = V m c main_v10 _
    refine congrArg _ (funext fun a => Fin.ext ?_)
    match a with
    | ⟨0, _⟩ => show win0_0.index t (0 : Fin 2) * 1024 + 1 * p.val = win0_4.index t (0 : Fin 2) * 1024 + 1 * p.val; omega
    | ⟨1, _⟩ => show win0_0.index t (1 : Fin 2) * 4096 + 1 * (e.val * 512 + kp.val) = e.val * 512 + kp.val; omega
  have b1 : iblk m c 1 t (ix2 kp q) = wqV m c (ix2 kp ((((cfg0.win 4).blk t).view.emb (ix2 p q)) 1)) := by
    show V m c main_arg1 (((cfg0.win 1).blk t).view.emb (ix2 kp q)) = V m c main_arg1 _
    refine congrArg _ (funext fun a => Fin.ext ?_)
    match a with
    | ⟨0, _⟩ => show win0_1.index t (0 : Fin 2) * 512 + 1 * kp.val = kp.val; omega
    | ⟨1, _⟩ => show win0_1.index t (1 : Fin 2) * 256 + 1 * q.val = win0_4.index t (1 : Fin 2) * 256 + 1 * q.val; omega
  have b2 : iblk m c 2 t (ix2 kp q) = sV m c (ix2 kp ((((cfg0.win 4).blk t).view.emb (ix2 p q)) 1)) := by
    show V m c main_v3 (((cfg0.win 2).blk t).view.emb (ix2 kp q)) = V m c main_v3 _
    refine congrArg _ (funext fun a => Fin.ext ?_)
    match a with
    | ⟨0, _⟩ => show win0_2.index t (0 : Fin 2) * 512 + 1 * kp.val = kp.val; omega
    | ⟨1, _⟩ => show win0_2.index t (1 : Fin 2) * 256 + 1 * q.val = win0_4.index t (1 : Fin 2) * 256 + 1 * q.val; omega
  have b3 : iblk m c 3 t (ix2 kp q) = zsV m c (ix2 kp ((((cfg0.win 4).blk t).view.emb (ix2 p q)) 1)) := by
    show V m c main_v6 (((cfg0.win 3).blk t).view.emb (ix2 kp q)) = V m c main_v6 _
    refine congrArg _ (funext fun a => Fin.ext ?_)
    match a with
    | ⟨0, _⟩ => show win0_3.index t (0 : Fin 2) * 512 + 1 * kp.val = kp.val; omega
    | ⟨1, _⟩ => show win0_3.index t (1 : Fin 2) * 256 + 1 * q.val = win0_4.index t (1 : Fin 2) * 256 + 1 * q.val; omega
  rw [b0, b1, b2, b3]

/-- An index of the result is in point `t`'s block iff each coordinate is in the block's range on its axis. -/
theorem mem_blk (t : Fin cfg0.N) (i : S8192x11008.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v11).slice (win0_4.rect t)).set ↔ _
  rw [View.set_slice_whole, Rect.mem_set_unit]
  exact Iff.rfl

/-- The blocks tile the result: index `(r, n)` is in the block at block row `r / 1024`, block column `n / 256`. -/
theorem cover (i : S8192x11008.Idx) :
    ∃ t : Fin cfg0.N, (cfg0.win 4).flush t = true ∧ i ∈ ((cfg0.win 4).blk t).view.set := by
  have hi0 : (i 0).val < 8192 := (i 0).isLt
  have hi1 : (i 1).val < 11008 := (i 1).isLt
  have hN : cfg0.N = 344 := N_0
  let t : Fin cfg0.N := ⟨(i 0).val / 1024 * 43 + (i 1).val / 256, by rw [hN]; omega⟩
  obtain ⟨-, -, -, -, -, -, -, -, e0, e1⟩ := index_facts t
  have q0 : win0_4.index t (0 : Fin 2) = (i 0).val / 1024 := by
    rw [e0]; show ((i 0).val / 1024 * 43 + (i 1).val / 256) / 43 = (i 0).val / 1024; omega
  have q1 : win0_4.index t (1 : Fin 2) = (i 1).val / 256 := by
    rw [e1]; show ((i 0).val / 1024 * 43 + (i 1).val / 256) % 43 = (i 1).val / 256; omega
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- The result array after the run is the field-by-field form of the arrays the region finds. -/
theorem final (c : Dev nD) : (dats m 0 c).arrAt 4 cfg0.N = found m c :=
  (dats m 0 c).arrAt_eq_of_cover 4 (found m c) (fun t _ => flushed_eq m c t) cover

/-- That form is `G` of the argument arrays, when the scales and zero points are real numbers. -/
theorem found_eq_G (c : Dev nD) (hsc : ∀ j, ∃ r : ℝ, scArr m c j = (r : EReal)) (hze : ∀ j, ∃ r : ℝ, zeArr m c j = (r : EReal)) :
    found m c = G (xArr m c) (wqArr m c) (scArr m c) (zeArr m c) := by
  have hw : wqV m c = wqArr m c := V_main_arg1 m c
  unfold found
  rw [hw]
  exact GK_eq_G (xArr m c) (x2V m c) (wqArr m c) (scArr m c) (zeArr m c) (sV m c) (zsV m c)
    (fun r e kp => xperm_apply m c r e kp) (fun kp n => srep_apply m c kp n) (fun kp n => zsrep_apply m c kp n) hsc hze

/-- The kernel's run: the result array ends at `G` of the arguments, the arguments unchanged. -/
theorem kernel_run (hsc : ∀ c j, ∃ r : ℝ, scArr m c j = (r : EReal)) (hze : ∀ c j, ∃ r : ℝ, zeArr m c j = (r : EReal)) :
    θ_run defs (onTc (τ := τ) (main (F := Ideal))) ⟨m, fun _ => 0, ρ⟩ fun r => ∀ c : Dev nD,
      r.2.mem ((c : Thread nD τ).loc main_v11) = G (xArr m c) (wqArr m c) (scArr m c) (zeArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (found_eq_G m c (hsc c) (hze c))), (h c).2⟩)
    (Cert.KernelIdeal.Value.run_blocks m ρ)

end Cert.QGemm.KernelSide

end
-- ==== Proof.RealInputs.lean ====
/-
  The precondition makes the scales and the zero points real numbers.

  The precondition is the conjunction, over the three float inputs, of "every entry's absolute value is below +∞". An
  extended real with `max x (−x) < ⊤` is neither `⊤` nor `⊥`, hence a real number.
-/
import proofs.«417954_j4312147165418_3_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.QGemm.Finite

open Idealize.ShloMosaic Cert.Pre_finite_inputs

instance : Subsingleton S_.Idx := ⟨fun a b => funext fun d => d.elim0⟩

/-- An extended real whose absolute value compares below the +∞ pattern is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]

/-- Under the precondition every scale and every zero point is a real number. -/
theorem real_of_pre (x0 : FVec Ideal S8192x4096 .f32) (x1 : IVec S512x11008 32) (x2 x3 : FVec Ideal S32x11008 .f32)
    (h : fn (F := Ideal) x0 x1 x2 x3 = fun _ => 1#1) :
    (∀ j, ∃ r : ℝ, x2 j = (r : EReal)) ∧ (∀ j, ∃ r : ℝ, x3 j = (r : EReal)) := by
  have h0 := congrFun h ValueIdx.ix0
  dsimp only [fn] at h0
  obtain ⟨h01, h3⟩ := IntOp.andi_eq_one.mp h0
  obtain ⟨-, h2⟩ := IntOp.andi_eq_one.mp h01
  exact ⟨fun j => real_of_abs_lt _ (Host.reduce_andi_all _ _ _ _ _ h2 j),
    fun j => real_of_abs_lt _ (Host.reduce_andi_all _ _ _ _ _ h3 j)⟩

end Cert.QGemm.Finite

end
-- ==== Proof.lean ====
/-
  A 4-bit grouped-quantised linear layer: the fused kernel against `x · dequantise(W_q, scales, zeros)`.

  Both programs compute, for every row `r` of `x` and column `n`,
      `∑ k, x[r, k] · (field(k) − zeros[k / 128, n]) · scales[k / 128, n]`,
  where `field(k)` is bits `4e … 4e+3` of the packed word `W_q[kp, n]`, `k = 8·kp + e`.
  The reference forms the 4096 × 11008 dequantised matrix and takes one matrix product. The kernel regroups the
  columns of `x` by field on the host, repeats each group's scale and (zero · scale) to one row per packed row, and on
  every 1024 × 256 output block adds eight 512-term products, one per field, each with the block
  `field_e · scale − zero·scale`. Over the extended reals the two agree because a finite sum may be regrouped along
  `k = 8·kp + e`, because `(a − z)·s = a·s − z·s` once `z` and `s` are real (which is what the precondition gives for the
  scales and zero points; the law fails at the infinities), and because masking with 15 makes the arithmetic and the
  logical shift by `4e ≤ 28` the same four bits. The changes of float format are the identity on extended reals.
  The idealisation's ledger of rewrites is empty, so the conjunct relating the kernel to its idealisation is `True`.
-/
import proofs.«417954_j4312147165418_3_alg».proof.Defs
import proofs.«417954_j4312147165418_3_alg».proof.Proof.Gen.Kernel
import proofs.«417954_j4312147165418_3_alg».proof.Proof.Gen.Kernel.Skeleton
import proofs.«417954_j4312147165418_3_alg».proof.Proof.Gen.Kernel.Launch
import proofs.«417954_j4312147165418_3_alg».proof.Proof.Gen.Kernel.Points
import proofs.«417954_j4312147165418_3_alg».proof.Proof.Gen.Kernel.Frame
import proofs.«417954_j4312147165418_3_alg».proof.Proof.Gen.KernelIdeal
import proofs.«417954_j4312147165418_3_alg».proof.Proof.Gen.KernelIdeal.Skeleton
import proofs.«417954_j4312147165418_3_alg».proof.Proof.Gen.KernelIdeal.Launch
import proofs.«417954_j4312147165418_3_alg».proof.Proof.Gen.KernelIdeal.Points
import proofs.«417954_j4312147165418_3_alg».proof.Proof.Gen.KernelIdeal.Frame
import proofs.«417954_j4312147165418_3_alg».proof.Proof.Gen.ReferenceIdeal
import proofs.«417954_j4312147165418_3_alg».proof.Proof.Gen.Pre_finite_inputs
import proofs.«417954_j4312147165418_3_alg».proof.Proof.Gen.KernelIdeal.Value
import proofs.«417954_j4312147165418_3_alg».proof.Proof.Gen.ReferenceIdeal.Run
import proofs.«417954_j4312147165418_3_alg».proof.Proof.Gen.ReferenceIdeal.Read
import proofs.«417954_j4312147165418_3_alg».proof.Proof.RefIsG
import proofs.«417954_j4312147165418_3_alg».proof.Proof.BlocksToArray
import proofs.«417954_j4312147165418_3_alg».proof.Proof.RealInputs
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does its idealised text. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at `G` of the (agreeing) arguments. -/
theorem algebraic : Cert.algebraic_KernelIdeal_ReferenceIdeal := by
  intro m ρ m' ρ' hpre hagree
  have hreal := fun c => Cert.QGemm.Finite.real_of_pre _ _ _ _ (hpre c)
  refine ⟨fun c => Cert.QGemm.G (Cert.QGemm.KernelSide.xArr m c) (Cert.QGemm.KernelSide.wqArr m c)
      (Cert.QGemm.KernelSide.scArr m c) (Cert.QGemm.KernelSide.zeArr m c),
    Cert.QGemm.KernelSide.kernel_run m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v18_eq _ _ _ _).trans (Cert.QGemm.RefSide.ref_eq_G _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
